-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S32x131136 : Shape := ⟨2, ![32, 131136]⟩
abbrev S64x1024 : Shape := ⟨2, ![64, 1024]⟩
abbrev S64 : Shape := ⟨1, ![64]⟩
abbrev S1x1024 : Shape := ⟨2, ![1, 1024]⟩
abbrev S1 : Shape := ⟨1, ![1]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S32x131136 : S_.BroadcastsInDim S32x131136 (![] : Fin 0 → Fin S32x131136.rank)
  reducesTo_S32x131136_S_d0_1 : S32x131136.ReducesTo [0, 1] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x1024 .f32) (main_arg5 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S512x1024 .f32) (main_arg1 : FVec F S32x131136 .f32) (main_arg2 : FVec F S64x1024 .f32) (main_arg3 : FVec F S64 .f32) (main_arg4 : FVec F S1x1024 .f32) (main_arg5 : FVec F S1 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S32x131136 .f32 := Host.absf main_arg1
  let main_cst_0 : FVec F S_ .f32 := constant S_ .f32 0x7F800000#32
  let main_v5 : FVec F S32x131136 .f32 := broadcastInDim S32x131136 ![] bcast_S_S32x131136 main_cst_0
  let main_v6 : IVec S32x131136 1 := cmpf .olt main_v4 main_v5
  let main_c_1 : IVec S_ 1 := constantI S_ 1 1#1
  let main_v7 : IVec S_ 1 := (fun x v => Host.reduce IntOp.andi x v reducesTo_S32x131136_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S512x1024 : Shape := ⟨2, ![512, 1024]⟩
abbrev S32x131136 : Shape := ⟨2, ![32, 131136]⟩
abbrev S64x1024 : Shape := ⟨2, ![64, 1024]⟩
abbrev S64 : Shape := ⟨1, ![64]⟩
abbrev S1x1024 : Shape := ⟨2, ![1, 1024]⟩
abbrev S1 : Shape := ⟨1, ![1]⟩
abbrev S32x64 : Shape := ⟨2, ![32, 64]⟩
abbrev S32x131072 : Shape := ⟨2, ![32, 131072]⟩
abbrev S1024x64 : Shape := ⟨2, ![1024, 64]⟩
abbrev S512x64 : Shape := ⟨2, ![512, 64]⟩
abbrev S1x64 : Shape := ⟨2, ![1, 64]⟩
abbrev S1024x1 : Shape := ⟨2, ![1024, 1]⟩
abbrev S512x1 : Shape := ⟨2, ![512, 1]⟩
abbrev S1x1 : Shape := ⟨2, ![1, 1]⟩
abbrev S_ : Shape := ⟨0, ![]⟩
abbrev S32 : Shape := ⟨1, ![32]⟩
abbrev S512 : Shape := ⟨1, ![512]⟩
abbrev S64x32 : Shape := ⟨2, ![64, 32]⟩
abbrev S512x32 : Shape := ⟨2, ![512, 32]⟩
abbrev S1x32 : Shape := ⟨2, ![1, 32]⟩
abbrev S512x131072 : Shape := ⟨2, ![512, 131072]⟩
abbrev S32x4096 : Shape := ⟨2, ![32, 4096]⟩
abbrev S512x4096 : Shape := ⟨2, ![512, 4096]⟩
abbrev S512x1x131072 : Shape := ⟨3, ![512, 1, 131072]⟩

abbrev nBuf : Space → Nat
  | .hbm => 80
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S32x131136, .f32⟩
  | .hbm, ⟨2, _⟩ => ⟨S64x1024, .f32⟩
  | .hbm, ⟨3, _⟩ => ⟨S64, .f32⟩
  | .hbm, ⟨4, _⟩ => ⟨S1x1024, .f32⟩
  | .hbm, ⟨5, _⟩ => ⟨S1, .f32⟩
  | .hbm, ⟨6, _⟩ => ⟨S32x64, .f32⟩
  | .hbm, ⟨7, _⟩ => ⟨S32x64, .f32⟩
  | .hbm, ⟨8, _⟩ => ⟨S32x131072, .f32⟩
  | .hbm, ⟨9, _⟩ => ⟨S1024x64, .f32⟩
  | .hbm, ⟨10, _⟩ => ⟨S512x64, .f32⟩
  | .hbm, ⟨11, _⟩ => ⟨S1x64, .f32⟩
  | .hbm, ⟨12, _⟩ => ⟨S512x64, .f32⟩
  | .hbm, ⟨13, _⟩ => ⟨S512x64, .f32⟩
  | .hbm, ⟨14, _⟩ => ⟨S512x64, .f32⟩
  | .hbm, ⟨15, _⟩ => ⟨S1024x1, .f32⟩
  | .hbm, ⟨16, _⟩ => ⟨S512x1, .f32⟩
  | .hbm, ⟨17, _⟩ => ⟨S1x1, .f32⟩
  | .hbm, ⟨18, _⟩ => ⟨S512x1, .f32⟩
  | .hbm, ⟨19, _⟩ => ⟨S512x1, .f32⟩
  | .hbm, ⟨20, _⟩ => ⟨S_, .f32⟩
  | .hbm, ⟨21, _⟩ => ⟨S512x1, .f32⟩
  | .hbm, ⟨22, _⟩ => ⟨S512x1, .f32⟩
  | .hbm, ⟨23, _⟩ => ⟨S512x1, .f32⟩
  | .hbm, ⟨24, _⟩ => ⟨S512x1, .f32⟩
  | .hbm, ⟨25, _⟩ => ⟨S512x1, .i1⟩
  | .hbm, ⟨26, _⟩ => ⟨S512x1, .f32⟩
  | .hbm, ⟨27, _⟩ => ⟨S512x1, .f32⟩
  | .hbm, ⟨28, _⟩ => ⟨S512x1, .f32⟩
  | .hbm, ⟨29, _⟩ => ⟨S512x1, .f32⟩
  | .hbm, ⟨30, _⟩ => ⟨S512x1, .f32⟩
  | .hbm, ⟨31, _⟩ => ⟨S512x1, .f32⟩
  | .hbm, ⟨32, _⟩ => ⟨S512x1, .f32⟩
  | .hbm, ⟨33, _⟩ => ⟨S512x1, .f32⟩
  | .hbm, ⟨34, _⟩ => ⟨S32x64, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S512x64, .f32⟩
  | .hbm, ⟨42, _⟩ => ⟨S_, .f32⟩
  | .hbm, ⟨43, _⟩ => ⟨S512, .f32⟩
  | .hbm, ⟨44, _⟩ => ⟨S512, .f32⟩
  | .hbm, ⟨45, _⟩ => ⟨S_, .f32⟩
  | .hbm, ⟨46, _⟩ => ⟨S512, .f32⟩
  | .hbm, ⟨47, _⟩ => ⟨S512, .f32⟩
  | .hbm, ⟨48, _⟩ => ⟨S64x32, .f32⟩
  | .hbm, ⟨49, _⟩ => ⟨S512x32, .f32⟩
  | .hbm, ⟨50, _⟩ => ⟨S512x1, .f32⟩
  | .hbm, ⟨51, _⟩ => ⟨S_, .f32⟩
  | .hbm, ⟨52, _⟩ => ⟨S512x1, .f32⟩
  | .hbm, ⟨53, _⟩ => ⟨S512x1, .f32⟩
  | .hbm, ⟨54, _⟩ => ⟨S1x32, .f32⟩
  | .hbm, ⟨55, _⟩ => ⟨S512x32, .f32⟩
  | .hbm, ⟨56, _⟩ => ⟨S512x32, .f32⟩
  | .hbm, ⟨57, _⟩ => ⟨S512x32, .f32⟩
  | .hbm, ⟨58, _⟩ => ⟨S_, .f32⟩
  | .hbm, ⟨59, _⟩ => ⟨S512x32, .f32⟩
  | .hbm, ⟨60, _⟩ => ⟨S512x32, .f32⟩
  | .hbm, ⟨61, _⟩ => ⟨S512x32, .f32⟩
  | .hbm, ⟨62, _⟩ => ⟨S512x32, .f32⟩
  | .hbm, ⟨63, _⟩ => ⟨S512x32, .f32⟩
  | .hbm, ⟨64, _⟩ => ⟨S_, .f32⟩
  | .hbm, ⟨65, _⟩ => ⟨S512, .f32⟩
  | .hbm, ⟨66, _⟩ => ⟨S_, .f32⟩
  | .hbm, ⟨67, _⟩ => ⟨S512, .f32⟩
  | .hbm, ⟨68, _⟩ => ⟨S512, .f32⟩
  | .hbm, ⟨69, _⟩ => ⟨S512x1, .f32⟩
  | .hbm, ⟨70, _⟩ => ⟨S512x32, .f32⟩
  | .hbm, ⟨71, _⟩ => ⟨S512x32, .f32⟩
  | .hbm, ⟨72, _⟩ => ⟨S512x32, .f32⟩
  | .hbm, ⟨73, _⟩ => ⟨S_, .f32⟩
  | .hbm, ⟨74, _⟩ => ⟨S512, .f32⟩
  | .hbm, ⟨75, _⟩ => ⟨S512x1, .f32⟩
  | .hbm, ⟨76, _⟩ => ⟨S512x32, .f32⟩
  | .hbm, ⟨77, _⟩ => ⟨S512x32, .f32⟩
  | .hbm, ⟨78, _⟩ => ⟨S512x131072, .f32⟩
  | .hbm, ⟨79, _⟩ => ⟨S512x1x131072, .f32⟩
  | .local _ .vmem, ⟨0, _⟩ => ⟨S512x32, .f32⟩
  | .local _ .vmem, ⟨1, _⟩ => ⟨S32x4096, .f32⟩
  | .local _ .vmem, ⟨2, _⟩ => ⟨S32x4096, .f32⟩
  | .local _ .vmem, ⟨3, _⟩ => ⟨S512x4096, .f32⟩
  | .local _ .vmem, ⟨4, _⟩ => ⟨S512x4096, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v14 : Ref sig .tc := ⟨.hbm, 33, rfl⟩
abbrev main_call1_v0 : Ref sig .tc := ⟨.hbm, 34, rfl⟩
abbrev main_call1_cst : Ref sig .tc := ⟨.hbm, 35, rfl⟩
abbrev main_call1_v1 : Ref sig .tc := ⟨.hbm, 36, rfl⟩
abbrev main_v15 : Ref sig .tc := ⟨.hbm, 37, rfl⟩
abbrev main_cst : Ref sig .tc := ⟨.hbm, 38, rfl⟩
abbrev main_v16 : Ref sig .tc := ⟨.hbm, 39, rfl⟩
abbrev main_v17 : Ref sig .tc := ⟨.hbm, 40, rfl⟩
abbrev main_call2_v0 : Ref sig .tc := ⟨.hbm, 41, rfl⟩
abbrev main_call2_cst : Ref sig .tc := ⟨.hbm, 42, rfl⟩
abbrev main_call2_v1 : Ref sig .tc := ⟨.hbm, 43, rfl⟩
abbrev main_v18 : Ref sig .tc := ⟨.hbm, 44, rfl⟩
abbrev main_cst_0 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_1 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_2 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_3 : Ref sig .tc := ⟨.hbm, 64, rfl⟩
abbrev main_v35 : Ref sig .tc := ⟨.hbm, 65, rfl⟩
abbrev main_cst_4 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_5 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S32x131136_S32x64_0_0 : S32x131136.Slices ![0, 0] S32x64
  slices_S32x131136_S32x131072_0_64 : S32x131136.Slices ![0, 64] S32x131072
  transposes_S64x1024_S1024x64_1_0 : S64x1024.Transposes [1, 0] S1024x64
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  transposes_S1x1024_S1024x1_1_0 : S1x1024.Transposes [1, 0] S1024x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  reducesTo_S32x64_S32_d1 : S32x64.ReducesTo [1] S32
  h_S_ : 0 < S_.numel
  bcast_S_S32 : S_.BroadcastsInDim S32 (![] : Fin 0 → Fin S32.rank)
  reducesTo_S512x64_S512_d1 : S512x64.ReducesTo [1] S512
  bcast_S_S512 : S_.BroadcastsInDim S512 (![] : Fin 0 → Fin S512.rank)
  transposes_S32x64_S64x32_1_0 : S32x64.Transposes [1, 0] S64x32
  bcast_S512_S512x1_0 : S512.BroadcastsInDim S512x1 (![0] : Fin 1 → Fin S512x1.rank)
  bcast_S32_S1x32_1 : S32.BroadcastsInDim S1x32 (![1] : Fin 1 → Fin S1x32.rank)
  bcast_S512x1_S512x32_0_1 : S512x1.BroadcastsInDim S512x32 (![0, 1] : Fin 2 → Fin S512x32.rank)
  bcast_S1x32_S512x32_0_1 : S1x32.BroadcastsInDim S512x32 (![0, 1] : Fin 2 → Fin S512x32.rank)
  bcast_S_S512x32 : S_.BroadcastsInDim S512x32 (![] : Fin 0 → Fin S512x32.rank)
  reducesTo_S512x32_S512_d1 : S512x32.ReducesTo [1] S512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  bitsLt_bf16_f32 : FTy.bits .bf16 < FTy.bits .f32
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S512x4096_S512x4096_0_0 : ∀ a, (![0, 0] : Fin 2 → Nat) a + S512x4096.size a ≤ S512x4096.size a
  h_S512x4096 : 0 < S512x4096.numel
  bcast_S512x131072_S512x1x131072_0_2 : S512x131072.BroadcastsInDim S512x1x131072 (![0, 2] : Fin 2 → Fin S512x1x131072.rank)
  dot_S512x1024_S1024x64_S512x64_1_0_0_1_n_n_wf : DotDims.WF S512x1024 S1024x64 S512x64 [1] [0] [0] [1] [] []
  dot_S512x1024_S1024x1_S512x1_1_0_0_1_n_n_wf : DotDims.WF S512x1024 S1024x1 S512x1 [1] [0] [0] [1] [] []
  dot_S512x64_S64x32_S512x32_1_0_0_1_n_n_wf : DotDims.WF S512x64 S64x32 S512x32 [1] [0] [0] [1] [] []
  dot_S512x32_S32x4096_S512x4096_1_0_0_1_n_n_wf : DotDims.WF S512x32 S32x4096 S512x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S512x32.size a
  hwx0_0 : ∀ i : grid0.Coords, EltTy.bits .f32 = 32 ∨ (Rect.block (s := S512x32) S512x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x4096.size a ≤ S32x131072.size a
  hwx0_1 : ∀ i : grid0.Coords, EltTy.bits .f32 = 32 ∨ (Rect.block (s := S32x131072) S32x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S512x131072.size a
  hwx0_2 : ∀ i : grid0.Coords, EltTy.bits .f32 = 32 ∨ (Rect.block (s := S512x131072) S512x4096.size (cc0_transform_2 i) (hinb0_2 i)).WholeWords (EltTy.packing .f32)

variable [Facts₀]

def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x4096_S512x4096_1_0_0_1_n_n : DotDims S512x32 S32x4096 S512x4096 where
  lhsContracting := [1]
  rhsContracting := [0]
  lhsNonContracting := [0]
  rhsNonContracting := [1]
  lhsBatch := []
  rhsBatch := []
  wf := dot_S512x32_S32x4096_S512x4096_1_0_0_1_n_n_wf

abbrev win0_0 : Pipeline.Window sig grid0 :=
  Pipeline.Window.ofSpec (Memref.whole main_v45) S512x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x1024 : Shape := ⟨2, ![512, 1024]⟩
abbrev S32x131136 : Shape := ⟨2, ![32, 131136]⟩
abbrev S64x1024 : Shape := ⟨2, ![64, 1024]⟩
abbrev S64 : Shape := ⟨1, ![64]⟩
abbrev S1x1024 : Shape := ⟨2, ![1, 1024]⟩
abbrev S1 : Shape := ⟨1, ![1]⟩
abbrev S32x64 : Shape := ⟨2, ![32, 64]⟩
abbrev S32x131072 : Shape := ⟨2, ![32, 131072]⟩
abbrev S1024x64 : Shape := ⟨2, ![1024, 64]⟩
abbrev S512x64 : Shape := ⟨2, ![512, 64]⟩
abbrev S1x64 : Shape := ⟨2, ![1, 64]⟩
abbrev S1024x1 : Shape := ⟨2, ![1024, 1]⟩
abbrev S512x1 : Shape := ⟨2, ![512, 1]⟩
abbrev S1x1 : Shape := ⟨2, ![1, 1]⟩
abbrev S_ : Shape := ⟨0, ![]⟩
abbrev S32 : Shape := ⟨1, ![32]⟩
abbrev S512 : Shape := ⟨1, ![512]⟩
abbrev S64x32 : Shape := ⟨2, ![64, 32]⟩
abbrev S512x32 : Shape := ⟨2, ![512, 32]⟩
abbrev S1x32 : Shape := ⟨2, ![1, 32]⟩
abbrev S512x131072 : Shape := ⟨2, ![512, 131072]⟩
abbrev S512x1x131072 : Shape := ⟨3, ![512, 1, 131072]⟩

abbrev nBuf : Space → Nat
  | .hbm => 80
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S32x131136, .f32⟩
  | .hbm, ⟨2, _⟩ => ⟨S64x1024, .f32⟩
  | .hbm, ⟨3, _⟩ => ⟨S64, .f32⟩
  | .hbm, ⟨4, _⟩ => ⟨S1x1024, .f32⟩
  | .hbm, ⟨5, _⟩ => ⟨S1, .f32⟩
  | .hbm, ⟨6, _⟩ => ⟨S32x64, .f32⟩
  | .hbm, ⟨7, _⟩ => ⟨S32x64, .f32⟩
  | .hbm, ⟨8, _⟩ => ⟨S32x131072, .f32⟩
  | .hbm, ⟨9, _⟩ => ⟨S1024x64, .f32⟩
  | .hbm, ⟨10, _⟩ => ⟨S512x64, .f32⟩
  | .hbm, ⟨11, _⟩ => ⟨S1x64, .f32⟩
  | .hbm, ⟨12, _⟩ => ⟨S512x64, .f32⟩
  | .hbm, ⟨13, _⟩ => ⟨S512x64, .f32⟩
  | .hbm, ⟨14, _⟩ => ⟨S512x64, .f32⟩
  | .hbm, ⟨15, _⟩ => ⟨S1024x1, .f32⟩
  | .hbm, ⟨16, _⟩ => ⟨S512x1, .f32⟩
  | .hbm, ⟨17, _⟩ => ⟨S1x1, .f32⟩
  | .hbm, ⟨18, _⟩ => ⟨S512x1, .f32⟩
  | .hbm, ⟨19, _⟩ => ⟨S512x1, .f32⟩
  | .hbm, ⟨20, _⟩ => ⟨S_, .f32⟩
  | .hbm, ⟨21, _⟩ => ⟨S512x1, .f32⟩
  | .hbm, ⟨22, _⟩ => ⟨S512x1, .f32⟩
  | .hbm, ⟨23, _⟩ => ⟨S512x1, .f32⟩
  | .hbm, ⟨24, _⟩ => ⟨S512x1, .f32⟩
  | .hbm, ⟨25, _⟩ => ⟨S512x1, .i1⟩
  | .hbm, ⟨26, _⟩ => ⟨S512x1, .f32⟩
  | .hbm, ⟨27, _⟩ => ⟨S512x1, .f32⟩
  | .hbm, ⟨28, _⟩ => ⟨S512x1, .f32⟩
  | .hbm, ⟨29, _⟩ => ⟨S512x1, .f32⟩
  | .hbm, ⟨30, _⟩ => ⟨S512x1, .f32⟩
  | .hbm, ⟨31, _⟩ => ⟨S512x1, .f32⟩
  | .hbm, ⟨32, _⟩ => ⟨S512x1, .f32⟩
  | .hbm, ⟨33, _⟩ => ⟨S512x1, .f32⟩
  | .hbm, ⟨34, _⟩ => ⟨S32x64, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S512x64, .f32⟩
  | .hbm, ⟨42, _⟩ => ⟨S_, .f32⟩
  | .hbm, ⟨43, _⟩ => ⟨S512, .f32⟩
  | .hbm, ⟨44, _⟩ => ⟨S512, .f32⟩
  | .hbm, ⟨45, _⟩ => ⟨S_, .f32⟩
  | .hbm, ⟨46, _⟩ => ⟨S512, .f32⟩
  | .hbm, ⟨47, _⟩ => ⟨S512, .f32⟩
  | .hbm, ⟨48, _⟩ => ⟨S64x32, .f32⟩
  | .hbm, ⟨49, _⟩ => ⟨S512x32, .f32⟩
  | .hbm, ⟨50, _⟩ => ⟨S512x1, .f32⟩
  | .hbm, ⟨51, _⟩ => ⟨S_, .f32⟩
  | .hbm, ⟨52, _⟩ => ⟨S512x1, .f32⟩
  | .hbm, ⟨53, _⟩ => ⟨S512x1, .f32⟩
  | .hbm, ⟨54, _⟩ => ⟨S1x32, .f32⟩
  | .hbm, ⟨55, _⟩ => ⟨S512x32, .f32⟩
  | .hbm, ⟨56, _⟩ => ⟨S512x32, .f32⟩
  | .hbm, ⟨57, _⟩ => ⟨S512x32, .f32⟩
  | .hbm, ⟨58, _⟩ => ⟨S_, .f32⟩
  | .hbm, ⟨59, _⟩ => ⟨S512x32, .f32⟩
  | .hbm, ⟨60, _⟩ => ⟨S512x32, .f32⟩
  | .hbm, ⟨61, _⟩ => ⟨S512x32, .f32⟩
  | .hbm, ⟨62, _⟩ => ⟨S512x32, .f32⟩
  | .hbm, ⟨63, _⟩ => ⟨S512x32, .f32⟩
  | .hbm, ⟨64, _⟩ => ⟨S_, .f32⟩
  | .hbm, ⟨65, _⟩ => ⟨S512, .f32⟩
  | .hbm, ⟨66, _⟩ => ⟨S_, .f32⟩
  | .hbm, ⟨67, _⟩ => ⟨S512, .f32⟩
  | .hbm, ⟨68, _⟩ => ⟨S512, .f32⟩
  | .hbm, ⟨69, _⟩ => ⟨S512x1, .f32⟩
  | .hbm, ⟨70, _⟩ => ⟨S512x32, .f32⟩
  | .hbm, ⟨71, _⟩ => ⟨S512x32, .f32⟩
  | .hbm, ⟨72, _⟩ => ⟨S512x32, .f32⟩
  | .hbm, ⟨73, _⟩ => ⟨S_, .f32⟩
  | .hbm, ⟨74, _⟩ => ⟨S512, .f32⟩
  | .hbm, ⟨75, _⟩ => ⟨S512x1, .f32⟩
  | .hbm, ⟨76, _⟩ => ⟨S512x32, .f32⟩
  | .hbm, ⟨77, _⟩ => ⟨S512x32, .f32⟩
  | .hbm, ⟨78, _⟩ => ⟨S512x131072, .f32⟩
  | .hbm, ⟨79, _⟩ => ⟨S512x1x131072, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v14 : Ref sig .tc := ⟨.hbm, 33, rfl⟩
abbrev main_call1_v0 : Ref sig .tc := ⟨.hbm, 34, rfl⟩
abbrev main_call1_cst : Ref sig .tc := ⟨.hbm, 35, rfl⟩
abbrev main_call1_v1 : Ref sig .tc := ⟨.hbm, 36, rfl⟩
abbrev main_v15 : Ref sig .tc := ⟨.hbm, 37, rfl⟩
abbrev main_cst : Ref sig .tc := ⟨.hbm, 38, rfl⟩
abbrev main_v16 : Ref sig .tc := ⟨.hbm, 39, rfl⟩
abbrev main_v17 : Ref sig .tc := ⟨.hbm, 40, rfl⟩
abbrev main_call2_v0 : Ref sig .tc := ⟨.hbm, 41, rfl⟩
abbrev main_call2_cst : Ref sig .tc := ⟨.hbm, 42, rfl⟩
abbrev main_call2_v1 : Ref sig .tc := ⟨.hbm, 43, rfl⟩
abbrev main_v18 : Ref sig .tc := ⟨.hbm, 44, rfl⟩
abbrev main_cst_0 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_1 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_2 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_3 : Ref sig .tc := ⟨.hbm, 64, rfl⟩
abbrev main_v35 : Ref sig .tc := ⟨.hbm, 65, rfl⟩
abbrev main_cst_4 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_5 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩

abbrev nD : Nat := 1
abbrev τ : Topo := Topo.v7x

variable {F : FTy → Type} [FloatOps F]

class Facts₀ : Prop where
  slices_S32x131136_S32x64_0_0 : S32x131136.Slices ![0, 0] S32x64
  slices_S32x131136_S32x131072_0_64 : S32x131136.Slices ![0, 64] S32x131072
  transposes_S64x1024_S1024x64_1_0 : S64x1024.Transposes [1, 0] S1024x64
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  transposes_S1x1024_S1024x1_1_0 : S1x1024.Transposes [1, 0] S1024x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  reducesTo_S32x64_S32_d1 : S32x64.ReducesTo [1] S32
  h_S_ : 0 < S_.numel
  bcast_S_S32 : S_.BroadcastsInDim S32 (![] : Fin 0 → Fin S32.rank)
  reducesTo_S512x64_S512_d1 : S512x64.ReducesTo [1] S512
  bcast_S_S512 : S_.BroadcastsInDim S512 (![] : Fin 0 → Fin S512.rank)
  transposes_S32x64_S64x32_1_0 : S32x64.Transposes [1, 0] S64x32
  bcast_S512_S512x1_0 : S512.BroadcastsInDim S512x1 (![0] : Fin 1 → Fin S512x1.rank)
  bcast_S32_S1x32_1 : S32.BroadcastsInDim S1x32 (![1] : Fin 1 → Fin S1x32.rank)
  bcast_S512x1_S512x32_0_1 : S512x1.BroadcastsInDim S512x32 (![0, 1] : Fin 2 → Fin S512x32.rank)
  bcast_S1x32_S512x32_0_1 : S1x32.BroadcastsInDim S512x32 (![0, 1] : Fin 2 → Fin S512x32.rank)
  bcast_S_S512x32 : S_.BroadcastsInDim S512x32 (![] : Fin 0 → Fin S512x32.rank)
  reducesTo_S512x32_S512_d1 : S512x32.ReducesTo [1] S512
  bcast_S512x131072_S512x1x131072_0_2 : S512x131072.BroadcastsInDim S512x1x131072 (![0, 2] : Fin 2 → Fin S512x1x131072.rank)
  dot_S512x1024_S1024x64_S512x64_1_0_0_1_n_n_wf : DotDims.WF S512x1024 S1024x64 S512x64 [1] [0] [0] [1] [] []
  dot_S512x1024_S1024x1_S512x1_1_0_0_1_n_n_wf : DotDims.WF S512x1024 S1024x1 S512x1 [1] [0] [0] [1] [] []
  dot_S512x64_S64x32_S512x32_1_0_0_1_n_n_wf : DotDims.WF S512x64 S64x32 S512x32 [1] [0] [0] [1] [] []
  dot_S512x32_S32x131072_S512x131072_1_0_0_1_n_n_wf : DotDims.WF S512x32 S32x131072 S512x131072 [1] [0] [0] [1] [] []

variable [Facts₀]

def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x131072_S512x131072_1_0_0_1_n_n : DotDims S512x32 S32x131072 S512x131072 where
  lhsContracting := [1]
  rhsContracting := [0]
  lhsNonContracting := [0]
  rhsNonContracting := [1]
  lhsBatch := []
  rhsBatch := []
  wf := dot_S512x32_S32x131072_S512x131072_1_0_0_1_n_n_wf

class Facts : Prop extends Facts₀ where

variable [Facts]
-- ==== Proof.MatProd.lean ====
/-
  The product of an m×k matrix by a k×n matrix over the extended reals, entry by entry:
  (A·B)(a, b) = ∑ c, A(a, c) · B(c, b).
  At the ideal values both the host's `dot_general` and the matrix unit's product into a zero accumulator, each
  with the left operand's axis 1 contracted against the right operand's axis 0, are this function; a change of
  float format of an operand is the identity there, so the formats of the operands do not enter.
-/
import Idealize.ShloMosaic.Lib.ValueIdx
import Idealize.ShloMosaic.Lib.StackMember
import Idealize.ShloMosaic.PureOps.Ideal.Laws

noncomputable section

open scoped BigOperators

namespace Cert.MatProd

open Idealize.ShloMosaic Idealize.ShloMosaic.ValueIdx Idealize.ShloMosaic.StackMember

/-- The matrix product over the extended reals: entry (a, b) is the sum over the inner coordinate c of
    A(a, c) · B(c, b). -/
def matProd {m k n : Nat} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

/-- An entry of the product, with the index given by its coordinates. -/
theorem matProd_ix2 {m k n : Nat} (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- The host's plain matrix product is the matrix product. -/
theorem dotGeneral_eq_matProd {m k n : Nat} {φ₁ φ₂ : FTy} (prec : Option ContractPrecision)
    (A : FVec Ideal ⟨2, ![m, k]⟩ φ₁) (B : FVec Ideal ⟨2, ![k, n]⟩ φ₂) :
    Host.dotGeneral (DotDims.plain m k n) prec A B = matProd A B := by
  funext i
  obtain ⟨a, b, rfl⟩ : ∃ (a : Fin m) (b : Fin n), i = ix2 a b := ⟨i 0, i 1, eq_ix2 i⟩
  exact dotGeneral_plain_apply prec A B a b

/-- The matrix unit's product into the zero accumulator is the host's product of the same operands: both are the
    sum over the contracted index of the products, and the zero accumulator adds nothing. -/
theorem matmul_zero_eq_dotGeneral {sl sr so : Shape} {φ₁ φ₂ : FTy} (d : DotDims sl sr so) (prec prec' : Option ContractPrecision)
    (A : FVec Ideal sl φ₁) (B : FVec Ideal sr φ₂) :
    matmul d prec A B (constant (F := Ideal) so .f32 0x00000000#32) = Host.dotGeneral d prec' A B := by
  funext j
  show FloatOps.matmul d prec A B (constant (F := Ideal) so .f32 0x00000000#32) j = FloatOps.dotGeneral d prec' _ A B j
  rw [Ideal.matmul_constant_zero_apply, Ideal.dotGeneral_apply]

/-- So the matrix unit's plain product into the zero accumulator, its operands narrowed to another float format
    first, is the matrix product of the operands as they were. -/
theorem matmul_zero_truncf_eq_matProd {m k n : Nat} {φ ψ : FTy} (prec : Option ContractPrecision)
    (A : FVec Ideal ⟨2, ![m, k]⟩ φ) (B : FVec Ideal ⟨2, ![k, n]⟩ φ) (h : ψ.bits < φ.bits) :
    matmul (DotDims.plain m k n) prec (truncf ψ A h) (truncf ψ B h) (constant (F := Ideal) ⟨2, ![m, n]⟩ .f32 0x00000000#32)
      = matProd A B :=
  (matmul_zero_eq_dotGeneral (DotDims.plain m k n) prec none (truncf ψ A h) (truncf ψ B h)).trans
    (dotGeneral_eq_matProd none A B)

end Cert.MatProd

end
-- ==== Proof.KernelRead.lean ====
/-
  What the idealized kernel program leaves in its result, as a function of two arrays the host lines before the
  pallas_call computed: the softmax weights `cw` (512 × 32) and the program bank `MP` (32 × 131072, the argument's
  columns 64 …).
  The pallas_call runs 32 grid points. Point t loads all of `cw` and columns 4096·t … 4096·t + 4095 of `MP`,
  multiplies them on the matrix unit into a zero accumulator (after a narrowing of both operands that is the
  identity at the ideal values) and stores the 512 × 4096 product as columns 4096·t … of the output. An entry of a
  matrix product depends on one row of the left factor and one column of the right one, so the block point t
  writes is the block of the whole product cw · MP at the same columns; the 32 blocks tile the output, which
  therefore ends as cw · MP. The one host line after the call inserts a unit axis.
-/
import proofs.«106412_j83485574300001_1_alg».proof.Proof.Gen.KernelIdeal.Frame
import proofs.«106412_j83485574300001_1_alg».proof.Proof.MatProd
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.ReadValue

open Cert.KernelIdeal Cert.KernelIdeal.Gen Cert.MatProd

variable (m : (ℓ : Loc nD τ sig) → Buf (Elt Ideal) ℓ) (ρ : Dev nD → PrngReg)

theorem hz : (![0, 0] : Fin 2 → Nat) = fun _ => 0 := funext fun a => by fin_cases a <;> rfl

/-- The weights as the pallas_call finds them. -/
abbrev cw (c : Dev nD) : Vec Ideal S512x32 .f32 := V m c main_v45
/-- The program bank as the pallas_call finds it. -/
abbrev bank (c : Dev nD) : Vec Ideal S32x131072 .f32 := V m c main_v2
/-- The whole product of the weights and the bank. -/
abbrev readArr (c : Dev nD) : Vec Ideal S512x131072 .f32 := matProd (cw m c) (bank m c)

/-- The body's arithmetic: the matrix product of its two loaded blocks. -/
theorem pay_eq (x0 : Vec Ideal S512x32 .f32) (x1 : Vec Ideal S32x4096 .f32) :
    k0_pay1 (F := Ideal) x0 x1 = matProd x0 x1 := by
  unfold k0_pay1
  dsimp only
  rw [shapeCast_self, shapeCast_self]
  exact matmul_zero_truncf_eq_matProd none x0 x1 _

/-- The index maps over the grid: the weights' block never moves, the bank's and the output's are at column block t. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The weights' block at every point is the whole weights array. -/
theorem cwblk_apply (c : Dev nD) (t : Fin cfg0.N) (x : S512x32.Idx) :
    (iblk m c 0 t : Vec Ideal S512x32 .f32) x = cw m c x := by
  obtain ⟨e0, e1, -, -, -, -⟩ := idx_facts t
  unfold iblk
  rw [View.read_apply]
  show V m c main_v45 _ = V m c main_v45 _
  congr 1
  funext a
  apply Fin.ext
  match a with
  | ⟨0, _⟩ => show win0_0.index t (0 : Fin 2) * 512 + 1 * (x 0).val = (x 0).val; omega
  | ⟨1, _⟩ => show win0_0.index t (1 : Fin 2) * 32 + 1 * (x 1).val = (x 1).val; omega

/-- The bank's block at point t is the bank's columns 4096·t …. -/
theorem bankblk_apply (c : Dev nD) (t : Fin cfg0.N) (x : S32x4096.Idx) (k : S32x131072.Idx)
    (hk0 : (k 0).val = (x 0).val) (hk1 : (k 1).val = 4096 * t.val + (x 1).val) :
    (iblk m c 1 t : Vec Ideal S32x4096 .f32) x = bank m c k := by
  obtain ⟨-, -, e2, e3, -, -⟩ := idx_facts t
  unfold iblk
  rw [View.read_apply]
  show V m c main_v2 _ = V m c main_v2 _
  congr 1
  funext a
  apply Fin.ext
  match a with
  | ⟨0, _⟩ => show win0_1.index t (0 : Fin 2) * 32 + 1 * (x 0).val = (k 0).val; omega
  | ⟨1, _⟩ => show win0_1.index t (1 : Fin 2) * 4096 + 1 * (x 1).val = (k 1).val; omega

/-- An entry of the product of the two blocks at point t is the whole product's entry in the same row, 4096·t
    columns further on: the same row of the weights against the same column of the bank. -/
theorem blk_entry (c : Dev nD) (t : Fin cfg0.N) (j : S512x4096.Idx) (i : S512x131072.Idx)
    (h0 : (i 0).val = (j 0).val) (h1 : (i 1).val = 4096 * t.val + (j 1).val) :
    matProd (iblk m c 0 t : Vec Ideal S512x32 .f32) (iblk m c 1 t : Vec Ideal S32x4096 .f32) j = readArr m c i := by
  unfold readArr matProd
  refine Finset.sum_congr rfl fun k _ => ?_
  rw [cwblk_apply m c t, bankblk_apply m c t (ix2 k (j 1)) (ix2 k (i 1)) rfl h1]
  have e : i 0 = j 0 := Fin.ext h0
  rw [e]

/-- What point t writes back is the block of the whole product at columns 4096·t …. -/
theorem flushed_eq (c : Dev nD) (t : Fin cfg0.N) :
    (dats m 0 c).flushed 2 t = ((cfg0.win 2).blk t).view.read (Elt Ideal) (readArr m c) := by
  show (cfg0.win 2).cut (grid0.coords t) ((dats m 0 c).after 2 t) = _
  rw [after0_2]
  unfold out0_2
  rw [View.canon_unit_zero hz]
  simp only [View.ld_unit_zero (S := S512x32) hz, View.ld_unit_zero (S := S32x4096) hz]
  rw [pay_eq]
  obtain ⟨-, -, -, -, e4, e5⟩ := idx_facts t
  funext j
  refine blk_entry m c t j _ ?_ ?_
  · show win0_2.index t (0 : Fin 2) * 512 + 1 * (j 0).val = (j 0).val; omega
  · show win0_2.index t (1 : Fin 2) * 4096 + 1 * (j 1).val = 4096 * t.val + (j 1).val; omega

/-- An index of the output is in point t's block iff each coordinate is in the block's range on its axis. -/
theorem mem_blk (t : Fin cfg0.N) (i : S512x131072.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v46).slice (win0_2.rect t)).set ↔ _
  rw [View.set_slice_whole, Rect.mem_set_unit]
  exact Iff.rfl

/-- Every index of the output is in the block of the point its column falls to: column / 4096. -/
theorem cover (i : S512x131072.Idx) :
    ∃ t : Fin cfg0.N, (cfg0.win 2).flush t = true ∧ i ∈ ((cfg0.win 2).blk t).view.set := by
  have hi0 : (i 0).val < 512 := (i 0).isLt
  have hi1 : (i 1).val < 131072 := (i 1).isLt
  have hN : grid0.N = 32 := N_0
  have ht : (i 1).val / 4096 < cfg0.N := by show (i 1).val / 4096 < grid0.N; omega
  obtain ⟨-, -, -, -, e4, e5⟩ := idx_facts ⟨(i 1).val / 4096, ht⟩
  refine ⟨⟨(i 1).val / 4096, ht⟩, flush0_2 _, ?_⟩
  rw [mem_blk]
  intro a
  match a with
  | ⟨0, _⟩ =>
    show win0_2.index ⟨(i 1).val / 4096, ht⟩ (0 : Fin 2) * 512 ≤ (i 0).val ∧ (i 0).val < win0_2.index ⟨(i 1).val / 4096, ht⟩ (0 : Fin 2) * 512 + 512
    omega
  | ⟨1, _⟩ =>
    show win0_2.index ⟨(i 1).val / 4096, ht⟩ (1 : Fin 2) * 4096 ≤ (i 1).val ∧ (i 1).val < win0_2.index ⟨(i 1).val / 4096, ht⟩ (1 : Fin 2) * 4096 + 4096
    have e5' : win0_2.index ⟨(i 1).val / 4096, ht⟩ (1 : Fin 2) = (i 1).val / 4096 := e5
    omega

/-- So the output array ends holding the whole product. -/
theorem final (c : Dev nD) : (dats m 0 c).arrAt 2 cfg0.N = readArr m c :=
  (dats m 0 c).arrAt_eq_of_cover 2 (readArr m c) (fun t _ => flushed_eq m c t) cover

/-- The program's result: the whole product with a unit axis inserted between its two axes. -/
abbrev result (c : Dev nD) : Buf (Elt Ideal) ((c.tc : Thread nD τ).loc main_v47) :=
  broadcastInDim S512x1x131072 ![0, 2] bcast_S512x131072_S512x1x131072_0_2 (readArr m c)

/-- The one host line after the pallas_call reads the output array as the call left it. -/
theorem tail_eq (c : Dev nD) :
    Pipeline.afterTail₀ cfgs (dats m) 0 (V0 m) [hostOps1] c main_v47 = result m c := by
  unfold Pipeline.afterTail₀
  show StableHlo.after hostOps1 _ (Proc.devRef .tc main_v47) = _
  after_results
  exact congrArg _ ((Pipeline.withArrays_arr spec0 launch0.win.arr_inj c _ _ 2).trans (final m c))

/-- The run of the idealized kernel program, read: its result is the product of the weights and the bank as the
    host lines before the call computed them, with the unit axis inserted; the arguments are unchanged. -/
theorem run : θ_run defs (onTc (τ := τ) (main (F := Ideal))) ⟨m, fun _ => 0, ρ⟩ fun r => ∀ c : Dev nD,
      r.2.mem ((c.tc : Thread nD τ).loc main_v47) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v47 (Pipeline.mem_restRefs_of main_v47 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.ReadValue

end
-- ==== Proof.HostBefore.lean ====
/-
  The host lines before the pallas_call in the kernel program are, line for line, the reference's operations before
  its final matrix product: the keys tanh(x·Wkᵀ + bk), the strength softplus(x·Wsᵀ + bs), the cosine-style scores
  against the program keys tanh(W[:, :64]) with the norms' quirk 64·(‖b‖ + δ)·(‖a‖ + δ) + δ in the denominator, the
  softmax over the 32 programs, and the bank W[:, 64:]. So the two arrays the pallas_call is launched on — the
  softmax weights and the bank — are the reference's own intermediate values of the same arguments, as terms.
-/
import proofs.«106412_j83485574300001_1_alg».proof.Proof.Gen.KernelIdeal.Frame
import proofs.«106412_j83485574300001_1_alg».proof.Proof.Gen.ReferenceIdeal.Read
import Idealize.ShloMosaic.Lib.StableHlo.Run

noncomputable section

open Idealize.ShloMosaic Idealize.ShloMosaic.TcCoe Idealize.SL.Sem Idealize.ShloMosaic.StableHlo

namespace Cert.KernelIdeal.HostBefore

open Cert.KernelIdeal Cert.KernelIdeal.Gen

variable {F : FTy → Type} [FloatOps F]
variable (m : (ℓ : Loc nD τ sig) → Buf (Elt F) ℓ)

/-- The bank the pallas_call is launched on is the reference's slice of the same argument. -/
theorem bank_eq (c : Dev nD) :
    (V m c main_v2 : Vec F S32x131072 .f32)
      = Cert.ReferenceIdeal.Read.val_main_v2 (F := F) (m ((c.tc : Thread nD τ).loc main_arg1)) := by
  dsimp only [V, V0]
  simp only [hostOps0, hostOps0_1, hostOps0_2, hostOps0_3, hostOps0_4, hostOps0_5, List.flatten_cons, List.flatten_nil,
    List.append_nil, List.cons_append, List.nil_append]
  after_results_simp
  rfl

set_option maxRecDepth 8192 in
set_option maxHeartbeats 30000000 in
/-- The weights the pallas_call is launched on are the reference's softmax weights of the same arguments. -/
theorem weights_eq (c : Dev nD) :
    (V m c main_v45 : Vec F S512x32 .f32)
      = Cert.ReferenceIdeal.Read.val_main_v45 (F := F) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) := by
  dsimp only [V, V0]
  simp only [hostOps0, hostOps0_1, hostOps0_2, hostOps0_3, hostOps0_4, hostOps0_5, List.flatten_cons, List.flatten_nil,
    List.append_nil, List.cons_append, List.nil_append]
  after_results_simp
  rfl

end Cert.KernelIdeal.HostBefore

end
-- ==== Proof.Bridge.lean ====
/-
  The two programs' results are one term of the arguments. The kernel program's result is the matrix product
  cw · MP of the weights and the bank with a unit axis inserted; the weights and the bank are the reference's own
  intermediate values (the host lines before the call are the reference's lines); the reference's result is its
  `dot_general` of those two values — the same matrix product at the ideal values — with the same unit axis inserted.
-/
import proofs.«106412_j83485574300001_1_alg».proof.Proof.KernelRead
import proofs.«106412_j83485574300001_1_alg».proof.Proof.HostBefore

noncomputable section

open Idealize.ShloMosaic Idealize.ShloMosaic.TcCoe Idealize.SL.Sem

namespace Cert.KernelIdeal.ReadValue

open Cert.KernelIdeal Cert.KernelIdeal.Gen Cert.MatProd Cert.KernelIdeal.HostBefore

variable (m : (ℓ : Loc nD τ sig) → Buf (Elt Ideal) ℓ)

/-- The kernel program's result is the reference's last stage of the same arguments. -/
theorem result_ref (c : Dev nD) :
    result m c = Cert.ReferenceIdeal.Read.val_main_v47 (F := Ideal) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) := by
  unfold Cert.ReferenceIdeal.Read.val_main_v47 Cert.ReferenceIdeal.Read.val_main_v46
  show broadcastInDim S512x1x131072 ![0, 2] bcast_S512x131072_S512x1x131072_0_2 (matProd (V m c main_v45) (V m c main_v2)) = _
  rw [weights_eq m c, bank_eq m c]
  exact congrArg (broadcastInDim S512x1x131072 ![0, 2] bcast_S512x131072_S512x1x131072_0_2)
    (dotGeneral_eq_matProd none _ _).symm

end Cert.KernelIdeal.ReadValue

end
-- ==== Proof.lean ====
/-
  The certificate of the scatter-memory read: a controller's forward pass whose last and largest step, the weighted
  sum read = cw · MP of the program bank MP (32 × 131072) under the softmax weights cw (512 × 32), the kernel runs as
  a pallas_call over 32 column blocks of 4096, where the reference takes one `dot_general`; everything before it
  (keys, strength, scores, softmax) is the same jnp text in both programs.
  At the ideal values the narrowing of the matrix unit's operands is the identity and its product into a zero
  accumulator is the sum over the 32 programs of cw(b, p) · MP(p, d), which is the host's `dot_general` entry by
  entry; the blocks tile the output; the lines before the call compute, as terms, the reference's own intermediate
  values. So both results are one term of the arguments, and no property of the inputs is used: the precondition is
  never opened. The ideal pass rewrote nothing, so `preserves` is trivial. The frames of the two kernel programs
  are the generated ones; the reference's frame is its generated run with the result dropped.
-/
import proofs.«106412_j83485574300001_1_alg».proof.Defs
import proofs.«106412_j83485574300001_1_alg».proof.Proof.Gen.Kernel
import proofs.«106412_j83485574300001_1_alg».proof.Proof.Gen.Kernel.Skeleton
import proofs.«106412_j83485574300001_1_alg».proof.Proof.Gen.Kernel.Launch
import proofs.«106412_j83485574300001_1_alg».proof.Proof.Gen.Kernel.Points
import proofs.«106412_j83485574300001_1_alg».proof.Proof.Gen.Kernel.Frame
import proofs.«106412_j83485574300001_1_alg».proof.Proof.Gen.KernelIdeal
import proofs.«106412_j83485574300001_1_alg».proof.Proof.Gen.KernelIdeal.Skeleton
import proofs.«106412_j83485574300001_1_alg».proof.Proof.Gen.KernelIdeal.Launch
import proofs.«106412_j83485574300001_1_alg».proof.Proof.Gen.KernelIdeal.Points
import proofs.«106412_j83485574300001_1_alg».proof.Proof.Gen.KernelIdeal.Frame
import proofs.«106412_j83485574300001_1_alg».proof.Proof.Gen.ReferenceIdeal
import proofs.«106412_j83485574300001_1_alg».proof.Proof.Gen.Pre_finite_inputs
import proofs.«106412_j83485574300001_1_alg».proof.Proof.Gen.ReferenceIdeal.Run
import proofs.«106412_j83485574300001_1_alg».proof.Proof.Gen.ReferenceIdeal.Read
import proofs.«106412_j83485574300001_1_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the unit-axis insertion of cw · MP, for cw and MP the same terms of arguments that agree. -/
theorem algebraic : Cert.algebraic_KernelIdeal_ReferenceIdeal := by
  intro m ρ m' ρ' _ hagree
  refine ⟨fun c => Cert.KernelIdeal.ReadValue.result m c, Cert.KernelIdeal.ReadValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v47_eq, a0, a1, a2, a3, a4, a5]
  exact (Cert.KernelIdeal.ReadValue.result_ref m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
